-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S800000 32) (main_v33 : IVec S_ 1) : IVec S_ 1 :=
  let main_c_12 : IVec S_ 32 := constantI S_ 32 0#32
  let main_v34 : IVec S800000 32 := broadcastInDim S800000 ![] bcast_S_S800000 main_c_12
  let main_v35 : IVec S800000 1 := cmpi .sge main_arg1 main_v34
  let main_c_13 : IVec S_ 1 := constantI S_ 1 1#1
  let main_v36 : IVec S_ 1 := (fun x v => Host.reduce IntOp.andi x v reducesTo_S800000_S_d0 h_S_) main_v35 main_c_13
  let main_v37 : IVec S_ 1 := andi main_v33 main_v36
  main_v37

def fn_part1 {F : FTy → Type} [FloatOps F] (main_arg1 : IVec S800000 32) (main_arg6 : FVec F S64x64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_v33

def fn {F : FTy → Type} [FloatOps F] (main_arg0 : FVec F S50000x64 .f32) (main_arg1 : IVec S800000 32) (main_arg2 : IVec S800000 32) (main_arg3 : FVec F S64x64 .f32) (main_arg4 : FVec F S64x64 .f32) (main_arg5 : FVec F S64 .f32) (main_arg6 : FVec F S64x64 .f32) (main_arg7 : FVec F S64x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg6 main_arg7 main_arg8 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 38
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S800000x1, .i32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S1x64, .f32⟩
  | .hbm, ⟨29, _⟩ => ⟨S50000x64, .f32⟩
  | .hbm, ⟨30, _⟩ => ⟨S800000x1, .i32⟩
  | .hbm, ⟨31, _⟩ => ⟨S800000x64, .f32⟩
  | .hbm, ⟨32, _⟩ => ⟨S_, .f32⟩
  | .hbm, ⟨33, _⟩ => ⟨S50000x64, .f32⟩
  | .hbm, ⟨34, _⟩ => ⟨S800000x1, .i32⟩
  | .hbm, ⟨35, _⟩ => ⟨S50000x64, .f32⟩
  | .hbm, ⟨36, _⟩ => ⟨S1x64, .f32⟩
  | .hbm, ⟨37, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call0_v0 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call1_v0 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩

abbrev nBuf : Space → Nat
  | .hbm => 70
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .f32⟩
  | .hbm, ⟨31, _⟩ => ⟨S_, .f32⟩
  | .hbm, ⟨32, _⟩ => ⟨S50000x64, .f32⟩
  | .hbm, ⟨33, _⟩ => ⟨S800000x1, .i32⟩
  | .hbm, ⟨34, _⟩ => ⟨S50000x64, .f32⟩
  | .hbm, ⟨35, _⟩ => ⟨S50000x64, .f32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S1x64, .f32⟩
  | .hbm, ⟨41, _⟩ => ⟨S50000x64, .f32⟩
  | .hbm, ⟨42, _⟩ => ⟨S50000x64, .f32⟩
  | .hbm, ⟨43, _⟩ => ⟨S_, .f32⟩
  | .hbm, ⟨44, _⟩ => ⟨S50000x64, .f32⟩
  | .hbm, ⟨45, _⟩ => ⟨S50000x64, .f32⟩
  | .hbm, ⟨46, _⟩ => ⟨S_, .f32⟩
  | .hbm, ⟨47, _⟩ => ⟨S50000x64, .f32⟩
  | .hbm, ⟨48, _⟩ => ⟨S50000x64, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x64, .f32⟩
  | .hbm, ⟨58, _⟩ => ⟨S_, .f32⟩
  | .hbm, ⟨59, _⟩ => ⟨S50000x64, .f32⟩
  | .hbm, ⟨60, _⟩ => ⟨S800000x1, .i32⟩
  | .hbm, ⟨61, _⟩ => ⟨S50000x64, .f32⟩
  | .hbm, ⟨62, _⟩ => ⟨S50000x64, .f32⟩
  | .hbm, ⟨63, _⟩ => ⟨S50000x64, .f32⟩
  | .hbm, ⟨64, _⟩ => ⟨S50000x64, .f32⟩
  | .hbm, ⟨65, _⟩ => ⟨S50000x64, .f32⟩
  | .hbm, ⟨66, _⟩ => ⟨S50000x64, .f32⟩
  | .hbm, ⟨67, _⟩ => ⟨S1x64, .f32⟩
  | .hbm, ⟨68, _⟩ => ⟨S50000x64, .f32⟩
  | .hbm, ⟨69, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call0_cst : Ref sig .tc := ⟨.hbm, 43, rfl⟩
abbrev main_call0_v0 : Ref sig .tc := ⟨.hbm, 44, rfl⟩
abbrev main_v27 : Ref sig .tc := ⟨.hbm, 45, rfl⟩
abbrev main_call1_cst : Ref sig .tc := ⟨.hbm, 46, rfl⟩
abbrev main_call1_v0 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KBody.lean ====
/-
  What one grid point of the dense kernel computes, entry by entry, on the extended reals.

  A point holds 5000 node rows. From its blocks of the features `h`, of the neighbour sums `a` and of the per-node factor
  `s`, and from the two weight matrices and the bias row, it stores at row p, feature q
      Σₖ h[p,k]·Wself[k,q] + s[p]·(Σₖ a[p,k]·Wneigh[k,q]) + b[q],
  rectified in the first layer and as it is in the second. The casts to the narrower float format before the two matrix
  products are the identity on the extended reals, a product into a zero accumulator is the plain sum over the contracted
  axis, and the two broadcasts read the factor's column and the bias's row.
-/
import proofs.«417715_j17016660426789_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic

/-- Entry `k` of the block row of `i`. -/
abbrev rowAt (i : S5000x64.Idx) (k : Fin 64) : S5000x64.Idx := fun a => match a with
  | ⟨0, _⟩ => ⟨(i 0).val, (i 0).isLt⟩
  | ⟨1, _⟩ => ⟨k.val, k.isLt⟩
/-- Entry `k` of the weight column of `i`. -/
abbrev colAt (i : S5000x64.Idx) (k : Fin 64) : S64x64.Idx := fun a => match a with
  | ⟨0, _⟩ => ⟨k.val, k.isLt⟩
  | ⟨1, _⟩ => ⟨(i 1).val, (i 1).isLt⟩
/-- The block row of `i` in the per-node column. -/
abbrev nodeAt (i : S5000x64.Idx) : S5000x1.Idx := fun a => match a with
  | ⟨0, _⟩ => ⟨(i 0).val, (i 0).isLt⟩
  | ⟨1, _⟩ => ⟨0, Nat.one_pos⟩
/-- The feature of `i` in the bias row. -/
abbrev featAt (i : S5000x64.Idx) : S1x64.Idx := fun a => match a with
  | ⟨0, _⟩ => ⟨0, Nat.one_pos⟩
  | ⟨1, _⟩ => ⟨(i 1).val, (i 1).isLt⟩

theorem lhs_dot_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_dot_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_dot_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_dot_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block's matrix product into the zero accumulator, at an entry: the sum over the 64 contracted features. -/
theorem dot_apply {φ₁ φ₂ : FTy} (l : FVec Ideal S5000x64 φ₁) (r : FVec Ideal S64x64 φ₂) (i : S5000x64.Idx) :
    FloatOps.matmul dot_S5000x64_S64x64_S5000x64_1_0_0_1_n_n none l r (constant S5000x64 .f32 0x00000000#32) i
      = ∑ k : Fin 64, l (rowAt i k) * r (colAt i k) := by
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx i ((ValueIdx.contrEquiv1 dot_S5000x64_S64x64_S5000x64_1_0_0_1_n_n 64 rfl rfl).symm k) = rowAt i k := funext fun a => Fin.ext (by
    match a with
    | ⟨0, _⟩ => exact lhs_dot_0 _ _
    | ⟨1, _⟩ => exact (lhs_dot_1 _ _).trans hk)
  have er : dot_S5000x64_S64x64_S5000x64_1_0_0_1_n_n.rhsIdx i ((ValueIdx.contrEquiv1 dot_S5000x64_S64x64_S5000x64_1_0_0_1_n_n 64 rfl rfl).symm k) = colAt i k := funext fun a => Fin.ext (by
    match a with
    | ⟨0, _⟩ => exact (rhs_dot_0 _ _).trans hk
    | ⟨1, _⟩ => exact rhs_dot_1 _ _)
  rw [el, er]

/-- The per-node column spread over the 64 features reads the column at the entry's row. -/
theorem spreadNode_apply (s : FVec Ideal S5000x1 .f32) (i : S5000x64.Idx) :
    broadcastTo S5000x64 s broadcasts_S5000x1_S5000x64 i = s (nodeAt i) :=
  broadcastTo_apply s broadcasts_S5000x1_S5000x64 i (nodeAt i) (fun a => match a with
    | ⟨0, _⟩ => by show (i 0).val = if (5000 : Nat) = 1 then 0 else (i 0).val; rw [if_neg (by decide)]
    | ⟨1, _⟩ => by show 0 = if (1 : Nat) = 1 then 0 else (i 1).val; rw [if_pos rfl])

/-- The bias row spread over the 5000 rows reads the row at the entry's feature. -/
theorem spreadBias_apply (b : FVec Ideal S1x64 .f32) (i : S5000x64.Idx) :
    broadcastTo S5000x64 b broadcasts_S1x64_S5000x64 i = b (featAt i) :=
  broadcastTo_apply b broadcasts_S1x64_S5000x64 i (featAt i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

/-- The first layer's stored block at an entry. -/
theorem pay0_apply (h a : Vec Ideal S5000x64 .f32) (ws wn : Vec Ideal S64x64 .f32) (s : Vec Ideal S5000x1 .f32) (b : Vec Ideal S1x64 .f32) (i : S5000x64.Idx) :
    k0_pay1 (F := Ideal) h a ws wn s b i
      = max ((∑ k : Fin 64, h (rowAt i k) * ws (colAt i k)) + s (nodeAt i) * (∑ k : Fin 64, a (rowAt i k) * wn (colAt i k)) + b (featAt i)) 0 := by
  unfold k0_pay1
  rw [shapeCast_self, shapeCast_self, shapeCast_self]
  show max (FloatOps.matmul (F := Ideal) dot_S5000x64_S64x64_S5000x64_1_0_0_1_n_n none (truncf FTy.bf16 h bitsLt_bf16_f32) (truncf FTy.bf16 ws bitsLt_bf16_f32) (constant S5000x64 FTy.f32 0x00000000#32) i
      + broadcastTo S5000x64 s broadcasts_S5000x1_S5000x64 i
        * FloatOps.matmul (F := Ideal) dot_S5000x64_S64x64_S5000x64_1_0_0_1_n_n none (truncf FTy.bf16 a bitsLt_bf16_f32) (truncf FTy.bf16 wn bitsLt_bf16_f32) (constant S5000x64 FTy.f32 0x00000000#32) i
      + broadcastTo S5000x64 b broadcasts_S1x64_S5000x64 i) (Ideal.ofBits FTy.f32 0x00000000#32) = _
  rw [dot_apply, dot_apply, spreadNode_apply, spreadBias_apply, Ideal.ofBits_zero_f32]
  rfl

/-- The second layer's stored block at an entry: the same combine, not rectified. -/
theorem pay1_apply (h a : Vec Ideal S5000x64 .f32) (ws wn : Vec Ideal S64x64 .f32) (s : Vec Ideal S5000x1 .f32) (b : Vec Ideal S1x64 .f32) (i : S5000x64.Idx) :
    k1_pay1 (F := Ideal) h a ws wn s b i
      = (∑ k : Fin 64, h (rowAt i k) * ws (colAt i k)) + s (nodeAt i) * (∑ k : Fin 64, a (rowAt i k) * wn (colAt i k)) + b (featAt i) := by
  unfold k1_pay1
  rw [shapeCast_self, shapeCast_self, shapeCast_self, shapeCast_self]
  show FloatOps.matmul (F := Ideal) dot_S5000x64_S64x64_S5000x64_1_0_0_1_n_n none (truncf FTy.bf16 h bitsLt_bf16_f32) (truncf FTy.bf16 ws bitsLt_bf16_f32) (constant S5000x64 FTy.f32 0x00000000#32) i
      + broadcastTo S5000x64 s broadcasts_S5000x1_S5000x64 i
        * FloatOps.matmul (F := Ideal) dot_S5000x64_S64x64_S5000x64_1_0_0_1_n_n none (truncf FTy.bf16 a bitsLt_bf16_f32) (truncf FTy.bf16 wn bitsLt_bf16_f32) (constant S5000x64 FTy.f32 0x00000000#32) i
      + broadcastTo S5000x64 b broadcasts_S1x64_S5000x64 i = _
  rw [dot_apply, dot_apply, spreadNode_apply, spreadBias_apply]
  rfl

end Cert.KernelIdeal.Hand

end
-- ==== Proof.LibScaleSum.lean ====
/-
  Two facts about the extended reals that a mean-normalised sum keeps needing (a mean over neighbours, a mean pool, an average
  by a count clamped below by one).

  (1) A factor in [0, +∞) moves into a finite sum of products, onto the left factors, whatever the terms are — the sum may hold
      both infinities, which is why the factor must be non-negative and not +∞ (`scale_sum`, over any finite index set).
  (2) One over a number clamped below by one, `Ideal.div 1 (max d 1)`, is the inverse of the clamped number and lies in [0, +∞)
      for EVERY extended real d, +∞ included (its reciprocal is 0): `recipClamp_eq`, `recipClamp_nonneg`, `recipClamp_ne_top`.
  Together: normalising before or after a product with weights is the same, with no finiteness assumed of anything.
-/
import Idealize.ShloMosaic.PureOps.Ideal

noncomputable section

namespace Cert.Lib.ScaleSum

open Idealize.ShloMosaic

/-- A non-negative factor that is not +∞ moves into a sum of products over a finite set, onto the left factors. -/
theorem scale_sum_finset {ι : Type} (S : Finset ι) (s : EReal) (hs : 0 ≤ s) (hs' : s ≠ ⊤) (f g : ι → EReal) :
    s * ∑ k ∈ S, f k * g k = ∑ k ∈ S, (f k * s) * g k := by
  classical
  induction S using Finset.induction_on with
  | empty => simp
  | insert a S ha ih =>
    rw [Finset.sum_insert ha, Finset.sum_insert ha, EReal.left_distrib_of_nonneg_of_ne_top hs hs', ih]
    congr 1
    rw [mul_comm (f a) s, mul_assoc]

/-- The same over a whole finite index type. -/
theorem scale_sum {ι : Type} [Fintype ι] (s : EReal) (hs : 0 ≤ s) (hs' : s ≠ ⊤) (f g : ι → EReal) :
    s * ∑ k : ι, f k * g k = ∑ k : ι, (f k * s) * g k :=
  scale_sum_finset Finset.univ s hs hs' f g

/-- One over a number clamped below by one. -/
def recipClamp (d : EReal) : EReal := Ideal.div 1 (max d 1)

/-- The clamped number is not zero, so the quotient is its inverse. -/
theorem recipClamp_eq (d : EReal) : recipClamp d = (max d 1)⁻¹ := by
  unfold recipClamp Ideal.div
  have h0 : (0 : EReal) < max d 1 := lt_of_lt_of_le zero_lt_one (le_max_right _ _)
  rw [if_neg h0.ne', one_mul]

/-- It is non-negative whatever `d` is, +∞ included (whose reciprocal is 0). -/
theorem recipClamp_nonneg (d : EReal) : 0 ≤ recipClamp d := by
  rw [recipClamp_eq]
  exact EReal.inv_nonneg_of_nonneg (le_trans zero_le_one (le_max_right _ _))

/-- And never +∞: the clamped number is at least one, so it is not zero. -/
theorem recipClamp_ne_top (d : EReal) : recipClamp d ≠ ⊤ := by
  rw [recipClamp_eq]
  have h0 : (0 : EReal) < max d 1 := lt_of_lt_of_le zero_lt_one (le_max_right _ _)
  generalize max d 1 = M at h0
  induction M using EReal.rec with
  | bot => exact absurd h0 (not_lt.mpr bot_le)
  | coe r => rw [← EReal.coe_inv]; exact EReal.coe_ne_top _
  | top => rw [EReal.inv_top]; exact EReal.zero_ne_top

end Cert.Lib.ScaleSum

end
-- ==== Proof.Spec.lean ====
/-
  Two layers of mean-aggregating graph convolution over 50000 nodes with 64 features, as functions on the extended reals.

  One layer combines, at node r and output feature q,
      Σₖ h[r,k]·Wself[k,q]  +  (the neighbour term)  +  b[q],
  where a[r,·] is the SUM of the feature rows of r's in-neighbours and s[r] = 1 / max(deg r, 1) turns it into their mean.
  The two programs order the neighbour term differently:
      s[r] · (Σₖ a[r,k]·Wneigh[k,q])        -- scale after the product
      Σₖ (a[r,k]·s[r])·Wneigh[k,q]          -- scale before the product
  On the extended reals a factor moves across a sum only when it is non-negative and not +∞ (the sum may hold both
  infinities). The factor here is the reciprocal of a number that is at least one, so it lies in [0, 1] whatever the
  degree is: LibScaleSum.lean has the law (`scale_sum`) and its side conditions for such a reciprocal (`recipClamp_nonneg`,
  `recipClamp_ne_top`), and no finiteness of the features or weights is used.
-/
import Idealize.ShloMosaic.PureOps.Ideal
import Idealize.ShloMosaic.Lib.ValueIdx
import proofs.«417715_j17016660426789_3_alg».proof.Proof.LibScaleSum

noncomputable section

namespace Cert.Sage

open Idealize.ShloMosaic

/-- Node features: 50000 rows of 64. -/
abbrev SN : Shape := ⟨2, ![50000, 64]⟩
/-- A weight matrix, input feature by output feature. -/
abbrev SW : Shape := ⟨2, ![64, 64]⟩
/-- One number per node, kept as a column. -/
abbrev SC : Shape := ⟨2, ![50000, 1]⟩
/-- A bias: one number per output feature. -/
abbrev SB : Shape := ⟨1, ![64]⟩

/-- Entry `k` of the row of `i`. -/
abbrev atRow (i : SN.Idx) (k : Fin 64) : SN.Idx := fun a => match a with
  | ⟨0, _⟩ => ⟨(i 0).val, (i 0).isLt⟩
  | ⟨1, _⟩ => ⟨k.val, k.isLt⟩
/-- Entry `k` of the weight column of `i`. -/
abbrev atCol (i : SN.Idx) (k : Fin 64) : SW.Idx := fun a => match a with
  | ⟨0, _⟩ => ⟨k.val, k.isLt⟩
  | ⟨1, _⟩ => ⟨(i 1).val, (i 1).isLt⟩
/-- The node of `i`, as an index of a per-node column. -/
abbrev nodeOf (i : SN.Idx) : SC.Idx := fun a => match a with
  | ⟨0, _⟩ => ⟨(i 0).val, (i 0).isLt⟩
  | ⟨1, _⟩ => ⟨0, Nat.one_pos⟩
/-- The output feature of `i`, as an index of a bias. -/
abbrev featOf (i : SN.Idx) : SB.Idx := fun a => match a with
  | ⟨0, _⟩ => ⟨(i 1).val, (i 1).isLt⟩

/-- One layer's linear combine with the neighbour sum scaled AFTER its product with the weights. -/
def combine (h a : SN.Idx → EReal) (s : SC.Idx → EReal) (Ws Wn : SW.Idx → EReal) (b : SB.Idx → EReal) : SN.Idx → EReal :=
  fun i => (∑ k : Fin 64, h (atRow i k) * Ws (atCol i k)) + s (nodeOf i) * (∑ k : Fin 64, a (atRow i k) * Wn (atCol i k)) + b (featOf i)

/-- The same with the neighbour sum scaled BEFORE the product: the mean of the neighbours, then the weights. -/
def combineMean (h a : SN.Idx → EReal) (s : SC.Idx → EReal) (Ws Wn : SW.Idx → EReal) (b : SB.Idx → EReal) : SN.Idx → EReal :=
  fun i => (∑ k : Fin 64, h (atRow i k) * Ws (atCol i k)) + (∑ k : Fin 64, (a (atRow i k) * s (nodeOf i)) * Wn (atCol i k)) + b (featOf i)

/-- With every per-node factor in [0, +∞) the two orders of the neighbour term agree. -/
theorem combineMean_eq (h a : SN.Idx → EReal) (s : SC.Idx → EReal) (Ws Wn : SW.Idx → EReal) (b : SB.Idx → EReal)
    (hs : ∀ j, 0 ≤ s j ∧ s j ≠ ⊤) : combineMean h a s Ws Wn b = combine h a s Ws Wn b := by
  funext i
  unfold combineMean combine
  rw [Cert.Lib.ScaleSum.scale_sum (s (nodeOf i)) (hs _).1 (hs _).2]

/-- The rectifier, entry by entry. -/
def relu (z : SN.Idx → EReal) : SN.Idx → EReal := fun i => max (z i) 0

/-- Rectifying twice is rectifying once. -/
theorem relu_relu (z : SN.Idx → EReal) : relu (relu z) = relu z := by
  funext i
  unfold relu
  exact max_eq_left (le_max_right _ _)

/-- The float word of 1.0 denotes the real one. -/
theorem ofBits_one : Ideal.ofBits .f32 0x3F800000#32 = 1 := by
  simp [Ideal.ofBits, Ideal.ieee]
  norm_cast
  norm_num

/-- Two layers: rectified in between, none at the end. `agg` sums the neighbours' rows of a feature array (the same
    host operations in both programs: it stays a parameter) and `s` is the per-node reciprocal degree. -/
def twoLayers (agg : (SN.Idx → EReal) → (SN.Idx → EReal)) (s : SC.Idx → EReal) (x : SN.Idx → EReal)
    (Ws0 Wn0 : SW.Idx → EReal) (b0 : SB.Idx → EReal) (Ws1 Wn1 : SW.Idx → EReal) (b1 : SB.Idx → EReal) : SN.Idx → EReal :=
  combine (relu (combine x (agg x) s Ws0 Wn0 b0)) (agg (relu (combine x (agg x) s Ws0 Wn0 b0))) s Ws1 Wn1 b1

end Cert.Sage

end
-- ==== Proof.KRegion0.lean ====
/-
  The first layer's array after its ten grid points, for any contents `V` the region is entered with.

  Point t holds node rows 5000·t … 5000·t + 4999: its blocks of the features, of the neighbour sums and of the per-node factor are
  those rows of their arrays, the weights and the bias row are whole, and it writes back those rows of the result. So every entry
  (r, q) of the result is written by the one point r / 5000, and it holds the rectified combine of row r: the ten blocks together
  are one function of the arrays, entry by entry.
-/
import proofs.«417715_j17016660426789_3_alg».proof.Proof.Gen.KernelIdeal.Frame
import proofs.«417715_j17016660426789_3_alg».proof.Proof.KBody
import proofs.«417715_j17016660426789_3_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A bias kept as a one-row matrix, read as the bias. -/
def biasOfRow (r : S1x64.Idx → EReal) : Cert.Sage.SB.Idx → EReal := fun j => r (fun a => match a with
  | ⟨0, _⟩ => ⟨0, Nat.one_pos⟩
  | ⟨1, _⟩ => ⟨(j 0).val, (j 0).isLt⟩)

/-- The first layer of the arrays the region finds: rectified. -/
abbrev layer0 (c : Dev nD) : S50000x64.Idx → EReal :=
  Cert.Sage.relu (Cert.Sage.combine (V c main_arg0) (V c main_v12) (V c main_v8) (V c main_arg3) (V c main_arg4) (biasOfRow (V c main_v13)))

/-- The index maps over the ten points: the three row-blocked inputs move with the output, block t at point t; the
    weights and the bias row stay at block 0. -/
theorem idx_facts0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) = t.val :=
  (by decide +kernel : ∀ t : Fin grid0.N, _)

/-- Point `t`'s block of the features is rows 5000·t … of the feature array. -/
theorem read0_feat (c : Dev nD) (t : Fin cfg0.N) (y : S5000x64.Idx) (I : S50000x64.Idx)
    (h0 : (I 0).val = 5000 * t.val + (y 0).val) (h1 : (I 1).val = (y 1).val) :
    (iblk0 V c 0 t : Vec Ideal S5000x64 .f32) y = (V c main_arg0 : S50000x64.Idx → EReal) I := by
  obtain ⟨e00, e01, e10, e11, e20, e21, e30, e31, e40, e41, e50, e51, e61, e60⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * (y 0).val = (I 0).val; omega
  | ⟨1, _⟩ => show win0_0.index t (1 : Fin 2) * 64 + 1 * (y 1).val = (I 1).val; omega
/-- Point `t`'s block of the neighbour sums is the same rows of their array. -/
theorem read0_agg (c : Dev nD) (t : Fin cfg0.N) (y : S5000x64.Idx) (I : S50000x64.Idx)
    (h0 : (I 0).val = 5000 * t.val + (y 0).val) (h1 : (I 1).val = (y 1).val) :
    (iblk0 V c 1 t : Vec Ideal S5000x64 .f32) y = (V c main_v12 : S50000x64.Idx → EReal) I := by
  obtain ⟨e00, e01, e10, e11, e20, e21, e30, e31, e40, e41, e50, e51, e61, e60⟩ := idx_facts0 t
  unfold iblk0
  rw [View.read_apply]
  show V c main_v12 _ = V c main_v12 _
  congr 1
  funext a
  apply Fin.ext
  match a with
  | ⟨0, _⟩ => show win0_1.index t (0 : Fin 2) * 5000 + 1 * (y 0).val = (I 0).val; omega
  | ⟨1, _⟩ => show win0_1.index t (1 : Fin 2) * 64 + 1 * (y 1).val = (I 1).val; omega
/-- Point `t`'s block of the per-node factor is the same rows of its column. -/
theorem read0_fac (c : Dev nD) (t : Fin cfg0.N) (y : S5000x1.Idx) (I : S50000x1.Idx)
    (h0 : (I 0).val = 5000 * t.val + (y 0).val) (h1 : (I 1).val = (y 1).val) :
    (iblk0 V c 2 t : Vec Ideal S5000x1 .f32) y = (V c main_v8 : S50000x1.Idx → EReal) I := by
  obtain ⟨e00, e01, e10, e11, e20, e21, e30, e31, e40, e41, e50, e51, e61, e60⟩ := idx_facts0 t
  unfold iblk0
  rw [View.read_apply]
  show V c main_v8 _ = V c main_v8 _
  congr 1
  funext a
  apply Fin.ext
  match a with
  | ⟨0, _⟩ => show win0_2.index t (0 : Fin 2) * 5000 + 1 * (y 0).val = (I 0).val; omega
  | ⟨1, _⟩ => show win0_2.index t (1 : Fin 2) * 1 + 1 * (y 1).val = (I 1).val; omega
/-- The self weights are staged whole at every point. -/
theorem read0_ws (c : Dev nD) (t : Fin cfg0.N) (y : S64x64.Idx) :
    (iblk0 V c 3 t : Vec Ideal S64x64 .f32) y = (V c main_arg3 : S64x64.Idx → EReal) y := by
  obtain ⟨e00, e01, e10, e11, e20, e21, e30, e31, e40, e41, e50, e51, e61, e60⟩ := idx_facts0 t
  unfold iblk0
  rw [View.read_apply]
  show V c main_arg3 _ = V c main_arg3 _
  congr 1
  funext a
  apply Fin.ext
  match a with
  | ⟨0, _⟩ => show win0_3.index t (0 : Fin 2) * 64 + 1 * (y 0).val = (y 0).val; omega
  | ⟨1, _⟩ => show win0_3.index t (1 : Fin 2) * 64 + 1 * (y 1).val = (y 1).val; omega
/-- The neighbour weights are staged whole at every point. -/
theorem read0_wn (c : Dev nD) (t : Fin cfg0.N) (y : S64x64.Idx) :
    (iblk0 V c 4 t : Vec Ideal S64x64 .f32) y = (V c main_arg4 : S64x64.Idx → EReal) y := by
  obtain ⟨e00, e01, e10, e11, e20, e21, e30, e31, e40, e41, e50, e51, e61, e60⟩ := idx_facts0 t
  unfold iblk0
  rw [View.read_apply]
  show V c main_arg4 _ = V c main_arg4 _
  congr 1
  funext a
  apply Fin.ext
  match a with
  | ⟨0, _⟩ => show win0_4.index t (0 : Fin 2) * 64 + 1 * (y 0).val = (y 0).val; omega
  | ⟨1, _⟩ => show win0_4.index t (1 : Fin 2) * 64 + 1 * (y 1).val = (y 1).val; omega
/-- The bias row is staged whole at every point. -/
theorem read0_bias (c : Dev nD) (t : Fin cfg0.N) (y : S1x64.Idx) :
    (iblk0 V c 5 t : Vec Ideal S1x64 .f32) y = (V c main_v13 : S1x64.Idx → EReal) y := by
  obtain ⟨e00, e01, e10, e11, e20, e21, e30, e31, e40, e41, e50, e51, e61, e60⟩ := idx_facts0 t
  unfold iblk0
  rw [View.read_apply]
  show V c main_v13 _ = V c main_v13 _
  congr 1
  funext a
  apply Fin.ext
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- WHAT POINT `t` WRITES BACK is block `t` of the first layer. -/
theorem flushed0_eq (c : Dev nD) (t : Fin cfg0.N) :
    (dat0 (F := Ideal) V c).flushed 6 t = ((cfg0.win 6).blk t).view.read (Elt Ideal) (layer0 V c) := by
  show (cfg0.win 6).cut (grid0.coords t) ((dat0 (F := Ideal) V c).after 6 t) = _
  rw [after0_6]
  unfold out0_6
  rw [View.canon_unit_zero hz]
  simp only [View.ld_unit_zero (S := S5000x64) hz, View.ld_unit_zero (S := S64x64) hz, View.ld_unit_zero (S := S5000x1) hz, View.ld_unit_zero (S := S1x64) hz]
  funext j
  refine (pay0_apply (iblk0 V c 0 t) (iblk0 V c 1 t) (iblk0 V c 3 t) (iblk0 V c 4 t) (iblk0 V c 2 t) (iblk0 V c 5 t) j).trans ?_
  rw [View.read_apply]
  obtain ⟨e00, e01, e10, e11, e20, e21, e30, e31, e40, e41, e50, e51, e61, e60⟩ := idx_facts0 t
  have hI0 : ((((cfg0.win 6).blk t).view.emb j) 0).val = 5000 * t.val + (j 0).val := by
    show win0_6.index t (0 : Fin 2) * 5000 + 1 * (j 0).val = _; omega
  have hI1 : ((((cfg0.win 6).blk t).view.emb j) 1).val = (j 1).val := by
    show win0_6.index t (1 : Fin 2) * 64 + 1 * (j 1).val = _; omega
  generalize ((cfg0.win 6).blk t).view.emb j = I at hI0 hI1
  show _ = layer0 V c I
  have hx : ∀ k : Fin 64, (iblk0 V c 0 t : Vec Ideal S5000x64 .f32) (rowAt j k) = (V c main_arg0 : S50000x64.Idx → EReal) (Cert.Sage.atRow I k) :=
    fun k => read0_feat V c t (rowAt j k) (Cert.Sage.atRow I k) hI0 rfl
  have ha : ∀ k : Fin 64, (iblk0 V c 1 t : Vec Ideal S5000x64 .f32) (rowAt j k) = (V c main_v12 : S50000x64.Idx → EReal) (Cert.Sage.atRow I k) :=
    fun k => read0_agg V c t (rowAt j k) (Cert.Sage.atRow I k) hI0 rfl
  have hs : (iblk0 V c 2 t : Vec Ideal S5000x1 .f32) (nodeAt j) = (V c main_v8 : S50000x1.Idx → EReal) (Cert.Sage.nodeOf I) :=
    read0_fac V c t (nodeAt j) (Cert.Sage.nodeOf I) hI0 rfl
  have hws : ∀ k : Fin 64, (iblk0 V c 3 t : Vec Ideal S64x64 .f32) (colAt j k) = (V c main_arg3 : S64x64.Idx → EReal) (Cert.Sage.atCol I k) := fun k => by
    rw [read0_ws V c t (colAt j k)]
    congr 1
    funext a
    apply Fin.ext
    match a with
    | ⟨0, _⟩ => rfl
    | ⟨1, _⟩ => exact hI1.symm
  have hwn : ∀ k : Fin 64, (iblk0 V c 4 t : Vec Ideal S64x64 .f32) (colAt j k) = (V c main_arg4 : S64x64.Idx → EReal) (Cert.Sage.atCol I k) := fun k => by
    rw [read0_wn V c t (colAt j k)]
    congr 1
    funext a
    apply Fin.ext
    match a with
    | ⟨0, _⟩ => rfl
    | ⟨1, _⟩ => exact hI1.symm
  have hb : (iblk0 V c 5 t : Vec Ideal S1x64 .f32) (featAt j) = biasOfRow (V c main_v13) (Cert.Sage.featOf I) := by
    rw [read0_bias V c t (featAt j)]
    unfold biasOfRow
    congr 1
    funext a
    apply Fin.ext
    match a with
    | ⟨0, _⟩ => rfl
    | ⟨1, _⟩ => exact hI1.symm
  simp only [hx, ha, hs, hws, hwn, hb]
  rfl

/-- An entry of the result array is in point `t`'s block iff its row is one of the block's 5000 (its feature always is). -/
theorem mem_blk0 (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v14).slice (win0_6.rect t)).set ↔ _
  rw [View.set_slice_whole, Rect.mem_set_unit]
  exact Iff.rfl

/-- THE ARRAY after the ten points is the first layer: the point that writes row r is r / 5000. -/
theorem final0 (c : Dev nD) : (dat0 (F := Ideal) V c).arrAt 6 cfg0.N = layer0 V c :=
  (dat0 (F := Ideal) V c).arrAt_eq_of_cover 6 (layer0 V c) (fun t _ => flushed0_eq V c t) fun i => by
    have hi0 : (i 0).val < 50000 := (i 0).isLt
    have hi1 : (i 1).val < 64 := (i 1).isLt
    have hN : cfg0.N = 10 := N_0
    let t : Fin cfg0.N := ⟨(i 0).val / 5000, by rw [hN]; omega⟩
    obtain ⟨e00, e01, e10, e11, e20, e21, e30, e31, e40, e41, e50, e51, e61, e60⟩ := idx_facts0 t
    have ht : t.val = (i 0).val / 5000 := rfl
    refine ⟨t, flush0_6 t, ?_⟩
    rw [mem_blk0]
    intro a
    match a with
    | ⟨0, _⟩ => show win0_6.index t (0 : Fin 2) * 5000 ≤ (i 0).val ∧ (i 0).val < win0_6.index t (0 : Fin 2) * 5000 + 5000; omega
    | ⟨1, _⟩ => show win0_6.index t (1 : Fin 2) * 64 ≤ (i 1).val ∧ (i 1).val < win0_6.index t (1 : Fin 2) * 64 + 64; omega

end Cert.KernelIdeal.Hand

end
-- ==== Proof.KHost.lean ====
/-
  What the arrays hold when each of the two regions is entered.

  Before the first region the host computes, from the second index array, the per-node factor (one over the degree clamped
  below by one, `facK`) and, from the features and both index arrays, the neighbour sums (`aggK`: rows gathered at the first index
  array, added up at the second); it reshapes the bias into a row. Between the regions it computes the neighbour sums again, now of
  the first layer's result, and reshapes the second bias. Everything else the regions read is an argument as launched.
-/
import proofs.«417715_j17016660426789_3_alg».proof.Proof.Gen.KernelIdeal.Frame
import proofs.«417715_j17016660426789_3_alg».proof.Proof.KRegion0
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The per-node factor: one over the in-degree (ones added up at the second index array) clamped below by one, as a column. -/
def facK (dst : IVec S800000 32) : S50000x1.Idx → EReal :=
  broadcastInDim S50000x1 ![0] bcast_S50000_S50000x1_0
    (Host.divf (F := Ideal) (broadcastInDim S50000 ![] bcast_S_S50000 (constant (F := Ideal) S_ .f32 0x3F800000#32))
      (maximumf (F := Ideal)
        (Host.scatterAdd (F := Ideal) scatter_S50000_S800000x1_S800000_n_0_0_1 (broadcastInDim S50000 ![] bcast_S_S50000 (constant (F := Ideal) S_ .f32 0x00000000#32))
          (broadcastInDim S800000x1 ![0] bcast_S800000_S800000x1_0 dst) (broadcastInDim S800000 ![] bcast_S_S800000 (constant (F := Ideal) S_ .f32 0x3F800000#32)))
        (broadcastInDim S50000 ![] bcast_S_S50000 (constant (F := Ideal) S_ .f32 0x3F800000#32))))

/-- A node's summed neighbour rows of a feature array `h`: the rows `h` holds at the first index array, added up at the second. -/
def aggK (src dst : IVec S800000 32) (h : S50000x64.Idx → EReal) : S50000x64.Idx → EReal :=
  Host.scatterAdd (F := Ideal) scatter_S50000x64_S800000x1_S800000x64_1_0_0_1 (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 h (broadcastInDim S800000x1 ![0] bcast_S800000_S800000x1_0 src))

/-- The neighbour sums the first region finds. -/
theorem V3_agg (c : Dev nD) : (V3 m ρ c main_v12 : S50000x64.Idx → EReal)
    = aggK (m ((c : Thread nD τ).loc main_arg1)) (m ((c : Thread nD τ).loc main_arg2)) (m ((c : Thread nD τ).loc main_arg0)) := by
  show StableHlo.after hostOps0_2 (StableHlo.after hostOps0_1 (StableHlo.after hostOps0 (W0 m ρ c))) (Proc.devRef .tc main_v12) = _
  simp only [hostOps0, hostOps0_1, hostOps0_2]
  after_results
  rfl

/-- The per-node factor it finds. -/
theorem V3_fac (c : Dev nD) : (V3 m ρ c main_v8 : S50000x1.Idx → EReal) = facK (m ((c : Thread nD τ).loc main_arg2)) := by
  show StableHlo.after hostOps0_2 (StableHlo.after hostOps0_1 (StableHlo.after hostOps0 (W0 m ρ c))) (Proc.devRef .tc main_v8) = _
  simp only [hostOps0, hostOps0_1, hostOps0_2]
  after_results
  rfl

/-- The bias row it finds: the first bias, reshaped. -/
theorem V3_bias (c : Dev nD) : (V3 m ρ c main_v13 : S1x64.Idx → EReal) = shapeCast S1x64 (m ((c : Thread nD τ).loc main_arg5)) shapeCasts_S64_S1x64 := by
  show StableHlo.after hostOps0_2 (StableHlo.after hostOps0_1 (StableHlo.after hostOps0 (W0 m ρ c))) (Proc.devRef .tc main_v13) = _
  simp only [hostOps0, hostOps0_1, hostOps0_2]
  after_results
  rfl

/-! The features and the two weight matrices it finds are arguments as launched. -/
theorem V3_arg0 (c : Dev nD) : (V3 m ρ c main_arg0 : S50000x64.Idx → EReal) = m ((c : Thread nD τ).loc main_arg0) := by
  show StableHlo.after hostOps0_2 (StableHlo.after hostOps0_1 (StableHlo.after hostOps0 (W0 m ρ c))) (Proc.devRef .tc main_arg0) = _
  simp only [hostOps0, hostOps0_1, hostOps0_2]
  after_results
theorem V3_arg3 (c : Dev nD) : (V3 m ρ c main_arg3 : S64x64.Idx → EReal) = m ((c : Thread nD τ).loc main_arg3) := by
  show StableHlo.after hostOps0_2 (StableHlo.after hostOps0_1 (StableHlo.after hostOps0 (W0 m ρ c))) (Proc.devRef .tc main_arg3) = _
  simp only [hostOps0, hostOps0_1, hostOps0_2]
  after_results
theorem V3_arg4 (c : Dev nD) : (V3 m ρ c main_arg4 : S64x64.Idx → EReal) = m ((c : Thread nD τ).loc main_arg4) := by
  show StableHlo.after hostOps0_2 (StableHlo.after hostOps0_1 (StableHlo.after hostOps0 (W0 m ρ c))) (Proc.devRef .tc main_arg4) = _
  simp only [hostOps0, hostOps0_1, hostOps0_2]
  after_results

/-! An argument no window of the first region stages is, after the region, what it was before it. -/
theorem W4_arg1 (c : Dev nD) : W4 m ρ c (Proc.devRef .tc main_arg1) = m ((c : Thread nD τ).loc main_arg1) := by
  rw [W4_of_ne m ρ c main_arg1 (by decide)]
  show StableHlo.after hostOps0_2 (StableHlo.after hostOps0_1 (StableHlo.after hostOps0 (W0 m ρ c))) (Proc.devRef .tc main_arg1) = _
  simp only [hostOps0, hostOps0_1, hostOps0_2]
  after_results
theorem W4_arg2 (c : Dev nD) : W4 m ρ c (Proc.devRef .tc main_arg2) = m ((c : Thread nD τ).loc main_arg2) := by
  rw [W4_of_ne m ρ c main_arg2 (by decide)]
  show StableHlo.after hostOps0_2 (StableHlo.after hostOps0_1 (StableHlo.after hostOps0 (W0 m ρ c))) (Proc.devRef .tc main_arg2) = _
  simp only [hostOps0, hostOps0_1, hostOps0_2]
  after_results
theorem W4_arg6 (c : Dev nD) : W4 m ρ c (Proc.devRef .tc main_arg6) = m ((c : Thread nD τ).loc main_arg6) := by
  rw [W4_of_ne m ρ c main_arg6 (by decide)]
  show StableHlo.after hostOps0_2 (StableHlo.after hostOps0_1 (StableHlo.after hostOps0 (W0 m ρ c))) (Proc.devRef .tc main_arg6) = _
  simp only [hostOps0, hostOps0_1, hostOps0_2]
  after_results
theorem W4_arg7 (c : Dev nD) : W4 m ρ c (Proc.devRef .tc main_arg7) = m ((c : Thread nD τ).loc main_arg7) := by
  rw [W4_of_ne m ρ c main_arg7 (by decide)]
  show StableHlo.after hostOps0_2 (StableHlo.after hostOps0_1 (StableHlo.after hostOps0 (W0 m ρ c))) (Proc.devRef .tc main_arg7) = _
  simp only [hostOps0, hostOps0_1, hostOps0_2]
  after_results
theorem W4_arg8 (c : Dev nD) : W4 m ρ c (Proc.devRef .tc main_arg8) = m ((c : Thread nD τ).loc main_arg8) := by
  rw [W4_of_ne m ρ c main_arg8 (by decide)]
  show StableHlo.after hostOps0_2 (StableHlo.after hostOps0_1 (StableHlo.after hostOps0 (W0 m ρ c))) (Proc.devRef .tc main_arg8) = _
  simp only [hostOps0, hostOps0_1, hostOps0_2]
  after_results

/-- The per-node factor is an input of the first region: the region leaves it as it found it. -/
theorem W4_fac (c : Dev nD) : (W4 m ρ c (Proc.devRef .tc main_v8) : S50000x1.Idx → EReal) = facK (m ((c : Thread nD τ).loc main_arg2)) :=
  ((W4_arr m ρ c 2).trans (((dat0 (V3 m ρ) c).arrAt_in 2 rfl _).trans (A_eq0 (V3 m ρ) c 2))).trans (V3_fac m ρ c)

/-- The first region's result array holds the first layer of what the region found. -/
theorem W4_out (c : Dev nD) : (W4 m ρ c (Proc.devRef .tc main_v14) : S50000x64.Idx → EReal) = layer0 (V3 m ρ) c :=
  (W4_arr m ρ c 6).trans (final0 (V3 m ρ) c)

/-! What the second region finds. -/

/-- Its features are the first region's result: the first layer. -/
theorem V6_feat (c : Dev nD) : (V6 m ρ c main_v14 : S50000x64.Idx → EReal) = layer0 (V3 m ρ) c := by
  show StableHlo.after hostOps1_1 (StableHlo.after hostOps1 (W4 m ρ c)) (Proc.devRef .tc main_v14) = _
  simp only [hostOps1, hostOps1_1]
  after_results
  exact W4_out m ρ c

/-- Its neighbour sums are those of the first layer. -/
theorem V6_agg (c : Dev nD) : (V6 m ρ c main_v18 : S50000x64.Idx → EReal)
    = aggK (m ((c : Thread nD τ).loc main_arg1)) (m ((c : Thread nD τ).loc main_arg2)) (layer0 (V3 m ρ) c) := by
  show StableHlo.after hostOps1_1 (StableHlo.after hostOps1 (W4 m ρ c)) (Proc.devRef .tc main_v18) = _
  simp only [hostOps1, hostOps1_1]
  after_results
  show Host.scatterAdd (F := Ideal) scatter_S50000x64_S800000x1_S800000x64_1_0_0_1 (broadcastInDim S50000x64 ![] bcast_S_S50000x64 (constant (F := Ideal) S_ .f32 0x00000000#32))
      (broadcastInDim S800000x1 ![0] bcast_S800000_S800000x1_0 (W4 m ρ c (Proc.devRef .tc main_arg2)))
      (Host.gather gather_S50000x64_S800000x1_S800000x64_1_0_n_n_0_1_164 (W4 m ρ c (Proc.devRef .tc main_v14))
        (broadcastInDim S800000x1 ![0] bcast_S800000_S800000x1_0 (W4 m ρ c (Proc.devRef .tc main_arg1)))) = _
  rw [W4_arg2, W4_arg1, W4_out]
  rfl

/-- Its per-node factor is the first region's. -/
theorem V6_fac (c : Dev nD) : (V6 m ρ c main_v8 : S50000x1.Idx → EReal) = facK (m ((c : Thread nD τ).loc main_arg2)) := by
  show StableHlo.after hostOps1_1 (StableHlo.after hostOps1 (W4 m ρ c)) (Proc.devRef .tc main_v8) = _
  simp only [hostOps1, hostOps1_1]
  after_results
  exact W4_fac m ρ c

/-- Its bias row is the second bias, reshaped. -/
theorem V6_bias (c : Dev nD) : (V6 m ρ c main_v19 : S1x64.Idx → EReal) = shapeCast S1x64 (m ((c : Thread nD τ).loc main_arg8)) shapeCasts_S64_S1x64 := by
  show StableHlo.after hostOps1_1 (StableHlo.after hostOps1 (W4 m ρ c)) (Proc.devRef .tc main_v19) = _
  simp only [hostOps1, hostOps1_1]
  after_results
  show shapeCast S1x64 (W4 m ρ c (Proc.devRef .tc main_arg8)) shapeCasts_S64_S1x64 = _
  rw [W4_arg8]

/-! Its two weight matrices are arguments as launched. -/
theorem V6_arg6 (c : Dev nD) : (V6 m ρ c main_arg6 : S64x64.Idx → EReal) = m ((c : Thread nD τ).loc main_arg6) := by
  show StableHlo.after hostOps1_1 (StableHlo.after hostOps1 (W4 m ρ c)) (Proc.devRef .tc main_arg6) = _
  simp only [hostOps1, hostOps1_1]
  after_results
  exact W4_arg6 m ρ c
theorem V6_arg7 (c : Dev nD) : (V6 m ρ c main_arg7 : S64x64.Idx → EReal) = m ((c : Thread nD τ).loc main_arg7) := by
  show StableHlo.after hostOps1_1 (StableHlo.after hostOps1 (W4 m ρ c)) (Proc.devRef .tc main_arg7) = _
  simp only [hostOps1, hostOps1_1]
  after_results
  exact W4_arg7 m ρ c

end Cert.KernelIdeal.Hand

end
-- ==== Proof.KRegion1.lean ====
/-
  The second layer's array after its ten grid points, for any contents `V` the region is entered with.

  Point t holds node rows 5000·t … 5000·t + 4999: its blocks of the features, of the neighbour sums and of the per-node factor are
  those rows of their arrays, the weights and the bias row are whole, and it writes back those rows of the result. So every entry
  (r, q) of the result is written by the one point r / 5000, and it holds the combine of row r: the ten blocks together
  are one function of the arrays, entry by entry.
-/
import proofs.«417715_j17016660426789_3_alg».proof.Proof.Gen.KernelIdeal.Frame
import proofs.«417715_j17016660426789_3_alg».proof.Proof.KBody
import proofs.«417715_j17016660426789_3_alg».proof.Proof.KRegion0
import proofs.«417715_j17016660426789_3_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The second layer of the arrays the region finds: not rectified. -/
abbrev layer1 (c : Dev nD) : S50000x64.Idx → EReal :=
  Cert.Sage.combine (V c main_v14) (V c main_v18) (V c main_v8) (V c main_arg6) (V c main_arg7) (biasOfRow (V c main_v19))

/-- The index maps over the ten points: the three row-blocked inputs move with the output, block t at point t; the
    weights and the bias row stay at block 0. -/
theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) = t.val :=
  (by decide +kernel : ∀ t : Fin grid1.N, _)

/-- Point `t`'s block of the features is rows 5000·t … of the feature array. -/
theorem read1_feat (c : Dev nD) (t : Fin cfg1.N) (y : S5000x64.Idx) (I : S50000x64.Idx)
    (h0 : (I 0).val = 5000 * t.val + (y 0).val) (h1 : (I 1).val = (y 1).val) :
    (iblk1 V c 0 t : Vec Ideal S5000x64 .f32) y = (V c main_v14 : S50000x64.Idx → EReal) I := by
  obtain ⟨e00, e01, e10, e11, e20, e21, e30, e31, e40, e41, e50, e51, e61, e60⟩ := idx_facts1 t
  unfold iblk1
  rw [View.read_apply]
  show V c main_v14 _ = V c main_v14 _
  congr 1
  funext a
  apply Fin.ext
  match a with
  | ⟨0, _⟩ => show win1_0.index t (0 : Fin 2) * 5000 + 1 * (y 0).val = (I 0).val; omega
  | ⟨1, _⟩ => show win1_0.index t (1 : Fin 2) * 64 + 1 * (y 1).val = (I 1).val; omega
/-- Point `t`'s block of the neighbour sums is the same rows of their array. -/
theorem read1_agg (c : Dev nD) (t : Fin cfg1.N) (y : S5000x64.Idx) (I : S50000x64.Idx)
    (h0 : (I 0).val = 5000 * t.val + (y 0).val) (h1 : (I 1).val = (y 1).val) :
    (iblk1 V c 1 t : Vec Ideal S5000x64 .f32) y = (V c main_v18 : S50000x64.Idx → EReal) I := by
  obtain ⟨e00, e01, e10, e11, e20, e21, e30, e31, e40, e41, e50, e51, e61, e60⟩ := idx_facts1 t
  unfold iblk1
  rw [View.read_apply]
  show V c main_v18 _ = V c main_v18 _
  congr 1
  funext a
  apply Fin.ext
  match a with
  | ⟨0, _⟩ => show win1_1.index t (0 : Fin 2) * 5000 + 1 * (y 0).val = (I 0).val; omega
  | ⟨1, _⟩ => show win1_1.index t (1 : Fin 2) * 64 + 1 * (y 1).val = (I 1).val; omega
/-- Point `t`'s block of the per-node factor is the same rows of its column. -/
theorem read1_fac (c : Dev nD) (t : Fin cfg1.N) (y : S5000x1.Idx) (I : S50000x1.Idx)
    (h0 : (I 0).val = 5000 * t.val + (y 0).val) (h1 : (I 1).val = (y 1).val) :
    (iblk1 V c 2 t : Vec Ideal S5000x1 .f32) y = (V c main_v8 : S50000x1.Idx → EReal) I := by
  obtain ⟨e00, e01, e10, e11, e20, e21, e30, e31, e40, e41, e50, e51, e61, e60⟩ := idx_facts1 t
  unfold iblk1
  rw [View.read_apply]
  show V c main_v8 _ = V c main_v8 _
  congr 1
  funext a
  apply Fin.ext
  match a with
  | ⟨0, _⟩ => show win1_2.index t (0 : Fin 2) * 5000 + 1 * (y 0).val = (I 0).val; omega
  | ⟨1, _⟩ => show win1_2.index t (1 : Fin 2) * 1 + 1 * (y 1).val = (I 1).val; omega
/-- The self weights are staged whole at every point. -/
theorem read1_ws (c : Dev nD) (t : Fin cfg1.N) (y : S64x64.Idx) :
    (iblk1 V c 3 t : Vec Ideal S64x64 .f32) y = (V c main_arg6 : S64x64.Idx → EReal) y := by
  obtain ⟨e00, e01, e10, e11, e20, e21, e30, e31, e40, e41, e50, e51, e61, e60⟩ := idx_facts1 t
  unfold iblk1
  rw [View.read_apply]
  show V c main_arg6 _ = V c main_arg6 _
  congr 1
  funext a
  apply Fin.ext
  match a with
  | ⟨0, _⟩ => show win1_3.index t (0 : Fin 2) * 64 + 1 * (y 0).val = (y 0).val; omega
  | ⟨1, _⟩ => show win1_3.index t (1 : Fin 2) * 64 + 1 * (y 1).val = (y 1).val; omega
/-- The neighbour weights are staged whole at every point. -/
theorem read1_wn (c : Dev nD) (t : Fin cfg1.N) (y : S64x64.Idx) :
    (iblk1 V c 4 t : Vec Ideal S64x64 .f32) y = (V c main_arg7 : S64x64.Idx → EReal) y := by
  obtain ⟨e00, e01, e10, e11, e20, e21, e30, e31, e40, e41, e50, e51, e61, e60⟩ := idx_facts1 t
  unfold iblk1
  rw [View.read_apply]
  show V c main_arg7 _ = V c main_arg7 _
  congr 1
  funext a
  apply Fin.ext
  match a with
  | ⟨0, _⟩ => show win1_4.index t (0 : Fin 2) * 64 + 1 * (y 0).val = (y 0).val; omega
  | ⟨1, _⟩ => show win1_4.index t (1 : Fin 2) * 64 + 1 * (y 1).val = (y 1).val; omega
/-- The bias row is staged whole at every point. -/
theorem read1_bias (c : Dev nD) (t : Fin cfg1.N) (y : S1x64.Idx) :
    (iblk1 V c 5 t : Vec Ideal S1x64 .f32) y = (V c main_v19 : S1x64.Idx → EReal) y := by
  obtain ⟨e00, e01, e10, e11, e20, e21, e30, e31, e40, e41, e50, e51, e61, e60⟩ := idx_facts1 t
  unfold iblk1
  rw [View.read_apply]
  show V c main_v19 _ = V c main_v19 _
  congr 1
  funext a
  apply Fin.ext
  match a with
  | ⟨0, _⟩ => show win1_5.index t (0 : Fin 2) * 1 + 1 * (y 0).val = (y 0).val; omega
  | ⟨1, _⟩ => show win1_5.index t (1 : Fin 2) * 64 + 1 * (y 1).val = (y 1).val; omega

/-- WHAT POINT `t` WRITES BACK is block `t` of the second layer. -/
theorem flushed1_eq (c : Dev nD) (t : Fin cfg1.N) :
    (dat1 (F := Ideal) V c).flushed 6 t = ((cfg1.win 6).blk t).view.read (Elt Ideal) (layer1 V c) := by
  show (cfg1.win 6).cut (grid1.coords t) ((dat1 (F := Ideal) V c).after 6 t) = _
  rw [after1_6]
  unfold out1_6
  rw [View.canon_unit_zero hz]
  simp only [View.ld_unit_zero (S := S5000x64) hz, View.ld_unit_zero (S := S64x64) hz, View.ld_unit_zero (S := S5000x1) hz, View.ld_unit_zero (S := S1x64) hz]
  funext j
  refine (pay1_apply (iblk1 V c 0 t) (iblk1 V c 1 t) (iblk1 V c 3 t) (iblk1 V c 4 t) (iblk1 V c 2 t) (iblk1 V c 5 t) j).trans ?_
  rw [View.read_apply]
  obtain ⟨e00, e01, e10, e11, e20, e21, e30, e31, e40, e41, e50, e51, e61, e60⟩ := idx_facts1 t
  have hI0 : ((((cfg1.win 6).blk t).view.emb j) 0).val = 5000 * t.val + (j 0).val := by
    show win1_6.index t (0 : Fin 2) * 5000 + 1 * (j 0).val = _; omega
  have hI1 : ((((cfg1.win 6).blk t).view.emb j) 1).val = (j 1).val := by
    show win1_6.index t (1 : Fin 2) * 64 + 1 * (j 1).val = _; omega
  generalize ((cfg1.win 6).blk t).view.emb j = I at hI0 hI1
  show _ = layer1 V c I
  have hx : ∀ k : Fin 64, (iblk1 V c 0 t : Vec Ideal S5000x64 .f32) (rowAt j k) = (V c main_v14 : S50000x64.Idx → EReal) (Cert.Sage.atRow I k) :=
    fun k => read1_feat V c t (rowAt j k) (Cert.Sage.atRow I k) hI0 rfl
  have ha : ∀ k : Fin 64, (iblk1 V c 1 t : Vec Ideal S5000x64 .f32) (rowAt j k) = (V c main_v18 : S50000x64.Idx → EReal) (Cert.Sage.atRow I k) :=
    fun k => read1_agg V c t (rowAt j k) (Cert.Sage.atRow I k) hI0 rfl
  have hs : (iblk1 V c 2 t : Vec Ideal S5000x1 .f32) (nodeAt j) = (V c main_v8 : S50000x1.Idx → EReal) (Cert.Sage.nodeOf I) :=
    read1_fac V c t (nodeAt j) (Cert.Sage.nodeOf I) hI0 rfl
  have hws : ∀ k : Fin 64, (iblk1 V c 3 t : Vec Ideal S64x64 .f32) (colAt j k) = (V c main_arg6 : S64x64.Idx → EReal) (Cert.Sage.atCol I k) := fun k => by
    rw [read1_ws V c t (colAt j k)]
    congr 1
    funext a
    apply Fin.ext
    match a with
    | ⟨0, _⟩ => rfl
    | ⟨1, _⟩ => exact hI1.symm
  have hwn : ∀ k : Fin 64, (iblk1 V c 4 t : Vec Ideal S64x64 .f32) (colAt j k) = (V c main_arg7 : S64x64.Idx → EReal) (Cert.Sage.atCol I k) := fun k => by
    rw [read1_wn V c t (colAt j k)]
    congr 1
    funext a
    apply Fin.ext
    match a with
    | ⟨0, _⟩ => rfl
    | ⟨1, _⟩ => exact hI1.symm
  have hb : (iblk1 V c 5 t : Vec Ideal S1x64 .f32) (featAt j) = biasOfRow (V c main_v19) (Cert.Sage.featOf I) := by
    rw [read1_bias V c t (featAt j)]
    unfold biasOfRow
    congr 1
    funext a
    apply Fin.ext
    match a with
    | ⟨0, _⟩ => rfl
    | ⟨1, _⟩ => exact hI1.symm
  simp only [hx, ha, hs, hws, hwn, hb]
  rfl

/-- An entry of the result array is in point `t`'s block iff its row is one of the block's 5000 (its feature always is). -/
theorem mem_blk1 (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v20).slice (win1_6.rect t)).set ↔ _
  rw [View.set_slice_whole, Rect.mem_set_unit]
  exact Iff.rfl

/-- THE ARRAY after the ten points is the second layer: the point that writes row r is r / 5000. -/
theorem final1 (c : Dev nD) : (dat1 (F := Ideal) V c).arrAt 6 cfg1.N = layer1 V c :=
  (dat1 (F := Ideal) V c).arrAt_eq_of_cover 6 (layer1 V c) (fun t _ => flushed1_eq V c t) fun i => by
    have hi0 : (i 0).val < 50000 := (i 0).isLt
    have hi1 : (i 1).val < 64 := (i 1).isLt
    have hN : cfg1.N = 10 := N_1
    let t : Fin cfg1.N := ⟨(i 0).val / 5000, by rw [hN]; omega⟩
    obtain ⟨e00, e01, e10, e11, e20, e21, e30, e31, e40, e41, e50, e51, e61, e60⟩ := idx_facts1 t
    have ht : t.val = (i 0).val / 5000 := rfl
    refine ⟨t, flush1_6 t, ?_⟩
    rw [mem_blk1]
    intro a
    match a with
    | ⟨0, _⟩ => show win1_6.index t (0 : Fin 2) * 5000 ≤ (i 0).val ∧ (i 0).val < win1_6.index t (0 : Fin 2) * 5000 + 5000; omega
    | ⟨1, _⟩ => show win1_6.index t (1 : Fin 2) * 64 ≤ (i 1).val ∧ (i 1).val < win1_6.index t (1 : Fin 2) * 64 + 64; omega

end Cert.KernelIdeal.Hand

end
-- ==== Proof.KValue.lean ====
/-
  The kernel program's result, as the two layers of Spec.lean over the arguments.

  The result array is what the second region's ten write-backs leave: the second layer of what that region finds. It finds the
  first region's result — the first layer of the arguments, rectified —, that result's neighbour sums, the per-node factor and the
  second layer's weights and bias. So the result is `twoLayers` with the neighbour sums `aggK` and the per-node factor `facK` the
  host computes from the two index arrays.
-/
import proofs.«417715_j17016660426789_3_alg».proof.Proof.KRun
import proofs.«417715_j17016660426789_3_alg».proof.Proof.KHost
import proofs.«417715_j17016660426789_3_alg».proof.Proof.KRegion1

set_option maxRecDepth 16384

noncomputable section

namespace Cert.KernelIdeal.Hand

open Cert.KernelIdeal Cert.KernelIdeal.Gen Idealize.ShloMosaic Idealize.ShloMosaic.TcCoe Idealize.SL.Sem Cert.Sage

variable (m : (ℓ : Loc nD τ sig) → Buf (Elt Ideal) ℓ) (ρ : Dev nD → PrngReg)

/-- A bias reshaped into a one-row matrix and read back through the row is the bias. -/
theorem bias_row (b : FVec Ideal S64 .f32) : biasOfRow (shapeCast S1x64 b shapeCasts_S64_S1x64) = b := by
  funext j
  unfold biasOfRow
  refine shapeCast_apply b shapeCasts_S64_S1x64 _ j ?_
  rw [Shape.rowMajor_val_one, Shape.rowMajor_val_two]
  show (j 0).val = 0 * 64 + (j 0).val
  omega

/-- The first layer of what the first region finds is the first layer of the arguments. -/
theorem layer0_args (c : Dev nD) : layer0 (V3 m ρ) c
    = relu (combine (m ((c : Thread nD τ).loc main_arg0))
        (aggK (m ((c : Thread nD τ).loc main_arg1)) (m ((c : Thread nD τ).loc main_arg2)) (m ((c : Thread nD τ).loc main_arg0)))
        (facK (m ((c : Thread nD τ).loc main_arg2))) (m ((c : Thread nD τ).loc main_arg3)) (m ((c : Thread nD τ).loc main_arg4))
        (m ((c : Thread nD τ).loc main_arg5))) := by
  show relu (combine (V3 m ρ c main_arg0) (V3 m ρ c main_v12) (V3 m ρ c main_v8) (V3 m ρ c main_arg3) (V3 m ρ c main_arg4) (biasOfRow (V3 m ρ c main_v13))) = _
  rw [V3_arg0, V3_agg, V3_fac, V3_arg3, V3_arg4, V3_bias, bias_row]

/-- THE RESULT ARRAY after the run is the two layers of the arguments. -/
theorem result_eq (c : Dev nD) : (W7 m ρ c (Proc.devRef .tc main_v20) : S50000x64.Idx → EReal)
    = twoLayers (aggK (m ((c : Thread nD τ).loc main_arg1)) (m ((c : Thread nD τ).loc main_arg2))) (facK (m ((c : Thread nD τ).loc main_arg2)))
        (m ((c : Thread nD τ).loc main_arg0)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine ((W7_arr m ρ c 6).trans (final1 (V6 m ρ) c)).trans ?_
  show combine (V6 m ρ c main_v14) (V6 m ρ c main_v18) (V6 m ρ c main_v8) (V6 m ρ c main_arg6) (V6 m ρ c main_arg7) (biasOfRow (V6 m ρ c main_v19)) = _
  rw [V6_feat, V6_agg, V6_fac, V6_arg6, V6_arg7, V6_bias, bias_row, layer0_args]
  rfl

/-- THE RUN, READ: every weakly fair execution ends with the result array at the two layers of the arguments and the
    arguments as launched. -/
theorem run_value : θ_run defs (onTc (τ := τ) (main (F := Ideal))) ⟨m, fun _ => 0, ρ⟩ (fun r => ∀ c : Dev nD,
      r.2.mem ((c.tc : Thread nD τ).loc main_v20)
        = twoLayers (aggK (m ((c : Thread nD τ).loc main_arg1)) (m ((c : Thread nD τ).loc main_arg2))) (facK (m ((c : Thread nD τ).loc main_arg2)))
            (m ((c : Thread nD τ).loc main_arg0)) (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (run_result (F := Ideal) m ρ)

end Cert.KernelIdeal.Hand

end
-- ==== Proof.RefValue.lean ====
/-
  What the reference computes, as the two layers of Spec.lean.

  Read one operation at a time, each layer of the reference is: the features times the self weights, plus the MEAN of the
  neighbours (their summed rows times the per-node reciprocal degree) times the neighbour weights, plus the bias; the first layer
  is rectified twice, which is once. The reciprocal degree is one over a degree clamped below by one, so it is a factor in
  [0, 1] that moves out of the neighbour product (Spec.lean): each layer is the `combine` of Spec.lean, the two layers `twoLayers`.
  The rows a node's neighbours contribute — a gather of rows by one index array and a sum scattered by the other — stay one
  unopened function `aggR` of the features: the layer is first read over arbitrary arrays (`meanLayer`), and the program's
  own arrays are put in afterwards by unfolding names only.
-/
import proofs.«417715_j17016660426789_3_alg».proof.Proof.Gen.ReferenceIdeal.Read
import proofs.«417715_j17016660426789_3_alg».proof.Proof.Spec

noncomputable section

namespace Cert.ReferenceIdeal.Hand

open Cert.ReferenceIdeal Cert.ReferenceIdeal.Gen Cert.ReferenceIdeal.Read Idealize.ShloMosaic Cert.Sage

/-- The per-node factor the reference computes is a clamped degree's reciprocal, whatever the degree. -/
theorem fac_eq (x2 : IVec S800000 32) (j : S50000x1.Idx) :
    val_main_v8 (F := Ideal) x2 j = Cert.Lib.ScaleSum.recipClamp (val_main_v3 (F := Ideal) x2 (idx_main_v8 j)) := by
  rw [val_main_v8_apply, val_main_v7_apply, val_main_v6_apply, val_main_cst_2_apply, val_main_v5_apply, val_main_v4_apply, val_main_cst_1_apply]
  show Ideal.div (Ideal.ofBits .f32 0x3F800000#32) (max _ (Ideal.ofBits .f32 0x3F800000#32)) = _
  rw [ofBits_one]
  rfl

/-- So it lies in [0, +∞) at every node. -/
theorem fac_range (x2 : IVec S800000 32) (j : S50000x1.Idx) :
    0 ≤ val_main_v8 (F := Ideal) x2 j ∧ val_main_v8 (F := Ideal) x2 j ≠ ⊤ := by
  rw [fac_eq]
  exact ⟨Cert.Lib.ScaleSum.recipClamp_nonneg _, Cert.Lib.ScaleSum.recipClamp_ne_top _⟩

/-! ## One layer over arbitrary arrays -/

/-! The index maps the generated reading lemmas name are the row, column, node and feature of Spec.lean. -/
theorem row21 (i : S50000x64.Idx) (k : Fin 64) : lidx_main_v21 i k = atRow i k := funext fun a => by
  match a with
  | ⟨0, _⟩ => rfl
  | ⟨1, _⟩ => rfl
theorem col21 (i : S50000x64.Idx) (k : Fin 64) : ridx_main_v21 i k = atCol i k := funext fun a => by
  match a with
  | ⟨0, _⟩ => rfl
  | ⟨1, _⟩ => rfl
theorem feat25 (i : S50000x64.Idx) : idx_main_v24 (idx_main_v25 i) = featOf i := funext fun a => by
  match a with
  | ⟨0, _⟩ => rfl

theorem node_row (i : S50000x64.Idx) (k : Fin 64) : nodeOf (atRow i k) = nodeOf i := funext fun a => by
  match a with
  | ⟨0, _⟩ => rfl
  | ⟨1, _⟩ => rfl

/-- A per-node column spread over the 64 features reads the column at the entry's node. -/
theorem spread_apply (s : FVec Ideal S50000x1 .f32) (i : S50000x64.Idx) :
    broadcastInDim S50000x64 ![0, 1] bcast_S50000x1_S50000x64_0_1 s i = s (nodeOf i) :=
  broadcastInDim_apply _ bcast_S50000x1_S50000x64_0_1 s i (nodeOf i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

/-- One layer as the reference spells it, over any features `h`, neighbour sums `a` and per-node factor `s`: the two matrix
    products (the second of the neighbour sums already scaled), added, plus the bias spread over the rows. -/
def meanLayer (h a : FVec Ideal S50000x64 .f32) (s : FVec Ideal S50000x1 .f32) (ws wn : FVec Ideal S64x64 .f32) (b : FVec Ideal S64 .f32) : FVec Ideal S50000x64 .f32 :=
  addf (addf (val_main_v21 (F := Ideal) h ws)
      (val_main_v21 (F := Ideal) (mulf a (broadcastInDim S50000x64 ![0, 1] bcast_S50000x1_S50000x64_0_1 s)) wn))
    (val_main_v25 (F := Ideal) b)

/-- Entry by entry it is Spec.lean's layer with the neighbour sum scaled before the product. -/
theorem meanLayer_eq (h a : FVec Ideal S50000x64 .f32) (s : FVec Ideal S50000x1 .f32) (ws wn : FVec Ideal S64x64 .f32) (b : FVec Ideal S64 .f32) : meanLayer h a s ws wn b = combineMean h a s ws wn b := by
  funext i
  unfold meanLayer combineMean
  rw [ValueIdx.addf_apply, ValueIdx.addf_apply, val_main_v21_apply, val_main_v21_apply, val_main_v25_apply, val_main_v24_apply]
  have hs : ∀ k : Fin 64, broadcastInDim S50000x64 ![0, 1] bcast_S50000x1_S50000x64_0_1 s (atRow i k) = s (nodeOf i) := fun k =>
    (spread_apply s (atRow i k)).trans (congrArg s (node_row i k))
  simp only [ValueIdx.mulf_apply, row21, col21, feat25, hs]

/-! ## The program's own arrays -/

/-- A node's summed neighbour rows of a feature array `h`: the rows `h` holds at the index column `idx`, added up at the
    second index array. The same operations serve both layers; they are never opened. -/
def aggAt (idx : IVec S800000x1 32) (x2 : IVec S800000 32) (h : FVec Ideal S50000x64 .f32) : FVec Ideal S50000x64 .f32 :=
  Host.scatterAdd (F := Ideal) (φ := .f32) scatter_S50000x64_S800000x1_S800000x64_1_0_0_1 (val_main_v16 (F := Ideal)) (val_main_v17 (F := Ideal) x2)
    (Host.gather gather_S50000x64_S800000x1_S800000x64_1_0_n_n_0_1_164 h idx)

/-- The reference gathers at the first index array with its negative entries wrapped round by 50000. -/
def aggR (x1 x2 : IVec S800000 32) (h : FVec Ideal S50000x64 .f32) : FVec Ideal S50000x64 .f32 :=
  aggAt (val_main_v14 (F := Ideal) x1) x2 h

theorem agg0_eq (x0 : FVec Ideal S50000x64 .f32) (x1 x2 : IVec S800000 32) : val_main_v18 (F := Ideal) x0 x1 x2 = aggR x1 x2 x0 := by
  unfold val_main_v18 val_main_v15 aggR aggAt
  rfl

/-! The second layer spells the same zero array and the same two index columns again. -/
theorem zeros_again : val_main_v36 (F := Ideal) = val_main_v16 (F := Ideal) := rfl
theorem dstcol_again (x2 : IVec S800000 32) : val_main_v37 (F := Ideal) x2 = val_main_v17 (F := Ideal) x2 := rfl
theorem srccol_again (x1 : IVec S800000 32) : val_main_v34 (F := Ideal) x1 = val_main_v14 (F := Ideal) x1 := rfl

theorem agg1_eq (x0 : FVec Ideal S50000x64 .f32) (x1 x2 : IVec S800000 32) (x3 x4 : FVec Ideal S64x64 .f32) (x5 : FVec Ideal S64 .f32) :
    val_main_v38 (F := Ideal) x0 x1 x2 x3 x4 x5 = aggR x1 x2 (val_main_v28 (F := Ideal) x0 x1 x2 x3 x4 x5) := by
  unfold val_main_v38 val_main_v35 aggR aggAt
  rw [zeros_again, dstcol_again, srccol_again]

/-- The first layer before its rectifiers is `meanLayer` of the arguments, their neighbour sums and the per-node factor. -/
theorem pre0_eq (x0 : FVec Ideal S50000x64 .f32) (x1 x2 : IVec S800000 32) (x3 x4 : FVec Ideal S64x64 .f32) (x5 : FVec Ideal S64 .f32) :
    val_main_v26 (F := Ideal) x0 x1 x2 x3 x4 x5 = meanLayer x0 (aggR x1 x2 x0) (val_main_v8 (F := Ideal) x2) x3 x4 x5 := by
  unfold val_main_v26 val_main_v23 val_main_v22 val_main_v20 val_main_v19 meanLayer val_main_v21
  rw [agg0_eq]

/-- Rectifying against the two zero arrays the reference's two `relu` calls build is rectifying once. -/
theorem relu_twice (z : FVec Ideal S50000x64 .f32) :
    maximumf (maximumf z (val_main_call0_v0 (F := Ideal))) (val_main_call1_v0 (F := Ideal)) = relu z := by
  funext i
  rw [ValueIdx.maximumf_apply, ValueIdx.maximumf_apply, val_main_call1_v0_apply, val_main_call1_cst_apply, val_main_call0_v0_apply, val_main_call0_cst_apply]
  show max (max (z i) (Ideal.ofBits .f32 0x00000000#32)) (Ideal.ofBits .f32 0x00000000#32) = _
  rw [Ideal.ofBits_zero_f32]
  exact congrFun (relu_relu z) i

/-- The first layer: rectified twice, which is once; the per-node factor moved out of the neighbour product. -/
theorem hidden_eq (x0 : FVec Ideal S50000x64 .f32) (x1 x2 : IVec S800000 32) (x3 x4 : FVec Ideal S64x64 .f32) (x5 : FVec Ideal S64 .f32) :
    val_main_v28 (F := Ideal) x0 x1 x2 x3 x4 x5 = relu (combine x0 (aggR x1 x2 x0) (val_main_v8 (F := Ideal) x2) x3 x4 x5) := by
  unfold val_main_v28 val_main_v27
  rw [pre0_eq, meanLayer_eq, combineMean_eq _ _ _ _ _ _ (fac_range x2)]
  exact relu_twice _

/-- The second layer is `meanLayer` of the first layer's result, its neighbour sums and the same per-node factor. -/
theorem out_eq (x0 : FVec Ideal S50000x64 .f32) (x1 x2 : IVec S800000 32) (x3 x4 : FVec Ideal S64x64 .f32) (x5 : FVec Ideal S64 .f32) (x6 x7 : FVec Ideal S64x64 .f32) (x8 : FVec Ideal S64 .f32) :
    val_main_v46 (F := Ideal) x0 x1 x2 x3 x4 x5 x6 x7 x8
      = meanLayer (val_main_v28 (F := Ideal) x0 x1 x2 x3 x4 x5) (aggR x1 x2 (val_main_v28 (F := Ideal) x0 x1 x2 x3 x4 x5)) (val_main_v8 (F := Ideal) x2) x6 x7 x8 := by
  unfold val_main_v46 val_main_v43 val_main_v41 val_main_v42 val_main_v40 val_main_v39 val_main_v45 val_main_v44 meanLayer val_main_v21 val_main_v25 val_main_v24
  rw [agg1_eq]

/-- THE REFERENCE'S RESULT is the two layers of Spec.lean over its own neighbour sums and per-node factor. -/
theorem ref_value (x0 : FVec Ideal S50000x64 .f32) (x1 x2 : IVec S800000 32) (x3 x4 : FVec Ideal S64x64 .f32) (x5 : FVec Ideal S64 .f32) (x6 x7 : FVec Ideal S64x64 .f32) (x8 : FVec Ideal S64 .f32) :
    val_main_v46 (F := Ideal) x0 x1 x2 x3 x4 x5 x6 x7 x8 = twoLayers (aggR x1 x2) (val_main_v8 (F := Ideal) x2) x0 x3 x4 x5 x6 x7 x8 := by
  rw [out_eq, meanLayer_eq, combineMean_eq _ _ _ _ _ _ (fac_range x2), hidden_eq]
  unfold twoLayers
  rfl

end Cert.ReferenceIdeal.Hand

end
-- ==== Proof.PreSrc.lean ====
/-
  What the precondition says of the first index array: none of its 800000 entries is negative.

  The precondition is a conjunction ending in "every entry of the first index array is at least zero", printed as a reduction by
  `and` of the entrywise signed comparison with zero. Where it holds, each comparison is 1. Wrapping a negative entry round by 50000
  — what NumPy-style indexing does before it gathers — then changes nothing: the wrapped index array is the array itself.
-/
import proofs.«417715_j17016660426789_3_alg».proof.Pre_finite_inputs
import Idealize.ShloMosaic.Lib.ReduceAll
import Idealize.ShloMosaic.Lib.Affine
import Idealize.ShloMosaic.Lib.ValueIdx

noncomputable section

namespace Cert.Pre_finite_inputs.Hand

open Cert.Pre_finite_inputs Idealize.ShloMosaic

/-- An entry that compares "not below zero" does not compare "below zero". -/
theorem src_not_lt {x : BitVec 32} (h : IntOp.cmpi .sge x 0#32 = 1#1) : IntOp.cmpi .slt x 0#32 = 0#1 := by
  have h1 : ¬ IntOp.cmpi .slt x 0#32 = 1#1 := fun h2 => by
    have a := IntOp.cmpi_sge.mp h
    have b := IntOp.cmpi_slt.mp h2
    omega
  generalize IntOp.cmpi .slt x 0#32 = w at h1
  revert h1; revert w; decide

variable {F : FTy → Type} [FloatOps F] [Cert.Pre_finite_inputs.Facts]

instance : Subsingleton S_.Idx := ⟨fun a b => funext fun d => d.elim0⟩

/-- Under the precondition every entry of the first index array compares "not below zero". -/
theorem src_ge (x0 : FVec F S50000x64 .f32) (x1 x2 : IVec S800000 32) (x3 x4 : FVec F S64x64 .f32) (x5 : FVec F S64 .f32)
    (x6 x7 : FVec F S64x64 .f32) (x8 : FVec F S64 .f32)
    (h : fn (F := F) x0 x1 x2 x3 x4 x5 x6 x7 x8 = fun _ => 1#1) (e : S800000.Idx) :
    IntOp.cmpi .sge (x1 e) 0#32 = 1#1 := by
  have h0 := congrFun h ValueIdx.ix0
  dsimp only [fn, fn_part1, fn_part2] at h0
  have h1 := (IntOp.andi_eq_one.mp h0).2
  exact Host.reduce_andi_all _ _ _ _ _ h1 e

end Cert.Pre_finite_inputs.Hand

end
-- ==== Proof.Bridge.lean ====
/-
  Where the two programs' host sides meet.

  Both programs compute the per-node factor from the second index array by the same operations, and a node's neighbour sums by the
  same gather and the same scatter-add; they differ in ONE thing: the reference wraps a negative entry of the first index array
  round by 50000 before it gathers (NumPy-style indexing), the kernel program gathers at the entry as it is (clipped indexing).
  Under the precondition no entry is negative (PreSrc.lean), so the wrap is the identity and the two neighbour sums are one
  function of the features. Nothing here opens the gather or the scatter-add.
-/
import proofs.«417715_j17016660426789_3_alg».proof.Proof.KHost
import proofs.«417715_j17016660426789_3_alg».proof.Proof.RefValue
import proofs.«417715_j17016660426789_3_alg».proof.Proof.PreSrc

noncomputable section

namespace Cert.Proof.Bridge

open Idealize.ShloMosaic Cert.ReferenceIdeal.Read

/-! The two programs' dimension records carry the same numbers. -/
theorem gather_rec : Cert.ReferenceIdeal.gather_S50000x64_S800000x1_S800000x64_1_0_n_n_0_1_164 = Cert.KernelIdeal.gather_S50000x64_S800000x1_S800000x64_1_0_n_n_0_1_164 := rfl
theorem scatter_rows_rec : Cert.ReferenceIdeal.scatter_S50000x64_S800000x1_S800000x64_1_0_0_1 = Cert.KernelIdeal.scatter_S50000x64_S800000x1_S800000x64_1_0_0_1 := rfl
theorem scatter_deg_rec : Cert.ReferenceIdeal.scatter_S50000_S800000x1_S800000_n_0_0_1 = Cert.KernelIdeal.scatter_S50000_S800000x1_S800000_n_0_0_1 := rfl

/-- With no negative entry, wrapping the negative entries round leaves the index array as it is. -/
theorem wrap_id (x1 : IVec Cert.ReferenceIdeal.S800000 32) (h : ∀ e, IntOp.cmpi .sge (x1 e) 0#32 = 1#1) :
    val_main_v13 (F := Ideal) x1 = x1 := by
  funext e
  rw [val_main_v13_apply, val_main_v10_apply, val_main_v9_apply, val_main_c_apply, Cert.Pre_finite_inputs.Hand.src_not_lt (h e)]
  show (if (0#1 : BitVec 1) = 1 then _ else _) = _
  rw [if_neg (by decide)]

/-- The per-node factor is the same function of the second index array in both programs. -/
theorem fac_same (x2 : IVec Cert.ReferenceIdeal.S800000 32) : val_main_v8 (F := Ideal) x2 = Cert.KernelIdeal.Hand.facK x2 := by
  unfold val_main_v8 val_main_v7 val_main_v6 val_main_cst_2 val_main_v5 val_main_v4 val_main_cst_1 val_main_v3 val_main_v2 val_main_v1 val_main_cst_0 val_main_v0 val_main_cst Cert.KernelIdeal.Hand.facK
  rw [scatter_deg_rec]

/-- Where no entry of the first index array is negative, a node's neighbour sums are the same function of the features in both programs. -/
theorem agg_same (x1 x2 : IVec Cert.ReferenceIdeal.S800000 32) (h : ∀ e, IntOp.cmpi .sge (x1 e) 0#32 = 1#1) (f : FVec Ideal Cert.ReferenceIdeal.S50000x64 .f32) :
    Cert.ReferenceIdeal.Hand.aggR x1 x2 f = Cert.KernelIdeal.Hand.aggK x1 x2 f := by
  unfold Cert.ReferenceIdeal.Hand.aggR Cert.ReferenceIdeal.Hand.aggAt Cert.KernelIdeal.Hand.aggK val_main_v14 val_main_v16 val_main_v17 val_main_cst_4
  rw [wrap_id x1 h, gather_rec, scatter_rows_rec]

end Cert.Proof.Bridge

end
-- ==== Proof.lean ====
/-
  A two-layer mean-aggregating graph convolution over 50000 nodes, 800000 edges and 64 features: the program that runs each
  layer's dense per-node combine as a blocked kernel over ten blocks of 5000 node rows, against the plain array program, as
  functions on the extended reals.

  Both programs compute, from the second index array, the per-node factor s[r] = 1 / max(deg r, 1), and for a feature array h the
  neighbour sums a = (the rows of h at the first index array, added up at the second); a layer is then
      Σₖ h[r,k]·Wself[k,q] + (neighbour term) + b[q],
  rectified after the first layer only. They differ in two things.
  (1) The neighbour term. The blocked kernel scales after the product, s[r]·(Σₖ a[r,k]·Wneigh[k,q]); the array program takes
      the mean first, Σₖ (a[r,k]·s[r])·Wneigh[k,q]. The factor is the reciprocal of a number that is at least one, hence in [0, 1]
      whatever the degree, and such a factor moves across a sum of extended reals: no finiteness of features or weights is used.
  (2) The gather. The array program wraps a negative entry of the first index array round by 50000, the blocked program reads the
      entry as it is and clips. The precondition says no entry is negative, so the wrap is the identity.
  The array program also rectifies the first layer twice, which is once; the casts to a narrower float format before the kernel's
  matrix products are the identity on the extended reals.

  The three frames: the two kernel programs' are the generated ones; the array program's is its generated run with the result
  dropped. The idealized kernel program is the word-level one read at the extended reals (no rewrite was applied).
-/
import proofs.«417715_j17016660426789_3_alg».proof.Defs
import proofs.«417715_j17016660426789_3_alg».proof.Proof.Gen.Kernel
import proofs.«417715_j17016660426789_3_alg».proof.Proof.Gen.Kernel.Frame
import proofs.«417715_j17016660426789_3_alg».proof.Proof.Gen.KernelIdeal
import proofs.«417715_j17016660426789_3_alg».proof.Proof.Gen.KernelIdeal.Frame
import proofs.«417715_j17016660426789_3_alg».proof.Proof.Gen.ReferenceIdeal
import proofs.«417715_j17016660426789_3_alg».proof.Proof.Gen.ReferenceIdeal.Run
import proofs.«417715_j17016660426789_3_alg».proof.Proof.Gen.ReferenceIdeal.Read
import proofs.«417715_j17016660426789_3_alg».proof.Proof.Gen.Pre_finite_inputs
import proofs.«417715_j17016660426789_3_alg».proof.Proof.KValue
import proofs.«417715_j17016660426789_3_alg».proof.Proof.RefValue
import proofs.«417715_j17016660426789_3_alg».proof.Proof.PreSrc
import proofs.«417715_j17016660426789_3_alg».proof.Proof.Bridge

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the nine arguments, with no negative entry in the first index array, both programs end with the
    result array at the two layers of Spec.lean over the same neighbour sums and the same per-node factor. -/
theorem algebraic : Cert.algebraic_KernelIdeal_ReferenceIdeal := by
  intro m ρ m' ρ' hpre hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  have hsrc : ∀ e, IntOp.cmpi .sge (m ((c.tc : Thread Cert.KernelIdeal.nD Cert.KernelIdeal.τ).loc Cert.KernelIdeal.main_arg1) e) 0#32 = 1#1 :=
    fun e => Cert.Pre_finite_inputs.Hand.src_ge _ _ _ _ _ _ _ _ _ (hpre c) e
  rw [Cert.ReferenceIdeal.Read.val_main_v46_eq, Cert.ReferenceIdeal.Hand.ref_value, e0, e1, e2, e3, e4, e5, e6, e7, e8,
    Cert.Proof.Bridge.fac_same, funext (Cert.Proof.Bridge.agg_same _ _ hsrc)]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
